-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S64x1 : Shape := ⟨2, ![64, 1]⟩
abbrev S64 : Shape := ⟨1, ![64]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S64x1 : S_.BroadcastsInDim S64x1 (![] : Fin 0 → Fin S64x1.rank)
  reducesTo_S64x1_S_d0_1 : S64x1.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64x1 .f32) (main_arg5 : FVec F S64x1 .f32) (main_arg6 : FVec F S64 .f32) (main_arg7 : FVec F S64 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S262144x64 .f32) (main_arg1 : FVec F S262144x64 .f32) (main_arg2 : FVec F S64x1 .f32) (main_arg3 : FVec F S64x1 .f32) (main_arg4 : FVec F S64x1 .f32) (main_arg5 : FVec F S64x1 .f32) (main_arg6 : FVec F S64 .f32) (main_arg7 : FVec F S64 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S262144x64 .f32 := Host.absf main_arg1
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_arg5 main_arg6 main_arg7 main_v13 main_v16
-- ==== Kernel.lean ====
abbrev S262144x64 : Shape := ⟨2, ![262144, 64]⟩
abbrev S64x1 : Shape := ⟨2, ![64, 1]⟩
abbrev S64 : Shape := ⟨1, ![64]⟩
abbrev S1x64 : Shape := ⟨2, ![1, 64]⟩
abbrev S8192x64 : Shape := ⟨2, ![8192, 64]⟩
abbrev S8192 : Shape := ⟨1, ![8192]⟩
abbrev S8192x1 : Shape := ⟨2, ![8192, 1]⟩

abbrev nBuf : Space → Nat
  | .hbm => 16
  | .vmem => 14
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S64x1, .f32⟩
  | .hbm, ⟨3, _⟩ => ⟨S64x1, .f32⟩
  | .hbm, ⟨4, _⟩ => ⟨S64x1, .f32⟩
  | .hbm, ⟨5, _⟩ => ⟨S64x1, .f32⟩
  | .hbm, ⟨6, _⟩ => ⟨S64, .f32⟩
  | .hbm, ⟨7, _⟩ => ⟨S64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S262144x64, .f32⟩
  | .hbm, ⟨15, _⟩ => ⟨S262144x64, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S8192x64, .f32⟩
  | .local _ .vmem, ⟨11, _⟩ => ⟨S8192x64, .f32⟩
  | .local _ .vmem, ⟨12, _⟩ => ⟨S8192x64, .f32⟩
  | .local _ .vmem, ⟨13, _⟩ => ⟨S8192x64, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8192x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8192x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S64x1_S1x64 : S64x1.ShapeCasts S1x64
  shapeCasts_S64_S1x64 : S64.ShapeCasts S1x64
  inb_S8192x64_S8192x64_0_0 : ∀ a, (![0, 0] : Fin 2 → Nat) a + S8192x64.size a ≤ S8192x64.size a
  h_S8192x64 : 0 < S8192x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  reduces_S8192x64_S8192 : S8192x64.Reduces [1] S8192
  shapeCasts_S8192_S8192x1 : S8192.ShapeCasts S8192x1
  broadcasts_S8192x1_S8192x64 : S8192x1.Broadcasts S8192x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S262144x64.size a
  hwx0_0 : ∀ i : grid0.Coords, EltTy.bits .f32 = 32 ∨ (Rect.block (s := S262144x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S262144x64.size a
  hwx0_1 : ∀ i : grid0.Coords, EltTy.bits .f32 = 32 ∨ (Rect.block (s := S262144x64) S8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8192x64.size a ≤ S262144x64.size a
  hwx0_8 : ∀ i : grid0.Coords, EltTy.bits .f32 = 32 ∨ (Rect.block (s := S262144x64) S8192x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x64.size a ≤ S262144x64.size a
  hwx0_9 : ∀ i : grid0.Coords, EltTy.bits .f32 = 32 ∨ (Rect.block (s := S262144x64) S8192x64.size (cc0_transform_9 i) (hinb0_9 i)).WholeWords (EltTy.packing .f32)

variable [Facts₀]

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S8192x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S8192x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x64 : Shape := ⟨2, ![262144, 64]⟩
abbrev S64x1 : Shape := ⟨2, ![64, 1]⟩
abbrev S64 : Shape := ⟨1, ![64]⟩
abbrev S262144x1 : Shape := ⟨2, ![262144, 1]⟩
abbrev S1x64 : Shape := ⟨2, ![1, 64]⟩

abbrev nBuf : Space → Nat
  | .hbm => 28
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S64x1, .f32⟩
  | .hbm, ⟨3, _⟩ => ⟨S64x1, .f32⟩
  | .hbm, ⟨4, _⟩ => ⟨S64x1, .f32⟩
  | .hbm, ⟨5, _⟩ => ⟨S64x1, .f32⟩
  | .hbm, ⟨6, _⟩ => ⟨S64, .f32⟩
  | .hbm, ⟨7, _⟩ => ⟨S64, .f32⟩
  | .hbm, ⟨8, _⟩ => ⟨S262144x1, .f32⟩
  | .hbm, ⟨9, _⟩ => ⟨S262144x1, .f32⟩
  | .hbm, ⟨10, _⟩ => ⟨S262144x1, .f32⟩
  | .hbm, ⟨11, _⟩ => ⟨S262144x1, .f32⟩
  | .hbm, ⟨12, _⟩ => ⟨S262144x64, .f32⟩
  | .hbm, ⟨13, _⟩ => ⟨S262144x64, .f32⟩
  | .hbm, ⟨14, _⟩ => ⟨S262144x64, .f32⟩
  | .hbm, ⟨15, _⟩ => ⟨S262144x64, .f32⟩
  | .hbm, ⟨16, _⟩ => ⟨S262144x64, .f32⟩
  | .hbm, ⟨17, _⟩ => ⟨S1x64, .f32⟩
  | .hbm, ⟨18, _⟩ => ⟨S262144x64, .f32⟩
  | .hbm, ⟨19, _⟩ => ⟨S262144x64, .f32⟩
  | .hbm, ⟨20, _⟩ => ⟨S262144x64, .f32⟩
  | .hbm, ⟨21, _⟩ => ⟨S262144x64, .f32⟩
  | .hbm, ⟨22, _⟩ => ⟨S262144x64, .f32⟩
  | .hbm, ⟨23, _⟩ => ⟨S262144x64, .f32⟩
  | .hbm, ⟨24, _⟩ => ⟨S262144x64, .f32⟩
  | .hbm, ⟨25, _⟩ => ⟨S1x64, .f32⟩
  | .hbm, ⟨26, _⟩ => ⟨S262144x64, .f32⟩
  | .hbm, ⟨27, _⟩ => ⟨S262144x64, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S262144x1_S262144x64_0_1 : S262144x1.BroadcastsInDim S262144x64 (![0, 1] : Fin 2 → Fin S262144x64.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  dot_S262144x64_S64x1_S262144x1_1_0_0_1_n_n_wf : DotDims.WF S262144x64 S64x1 S262144x1 [1] [0] [0] [1] [] []

variable [Facts₀]

def dot_S262144x64_S64x1_S262144x1_1_0_0_1_n_n : DotDims S262144x64 S64x1 S262144x1 where
  lhsContracting := [1]
  rhsContracting := [0]
  lhsNonContracting := [0]
  rhsNonContracting := [1]
  lhsBatch := []
  rhsBatch := []
  wf := dot_S262144x64_S64x1_S262144x1_1_0_0_1_n_n_wf

class Facts : Prop extends Facts₀ where

variable [Facts]
-- ==== Proof.CrossSpec.lean ====
/-
  The cross-compress unit, one entry at a time, over the extended reals.

  From two [n, 64] arrays v and e, two weight vectors wa, wb of length 64 and a bias b of length 64, one output has at
  row p, column q the entry

      v[p, q] · (∑ₖ e[p, k] · wa[k])  +  e[p, q] · (∑ₖ v[p, k] · wb[k])  +  b[q]:

  row p of e against wa and row p of v against wb, each a single number for the whole row, then a pointwise combination
  with the row's own entries. The two outputs of the unit are this function at two choices of (wa, wb, b).
  The weights and the bias enter only through their 64 coordinates, so it does not matter whether a weight is kept as a
  [64, 1] column, a [1, 64] row or a flat [64] vector; and the row count n is a parameter, so the same function describes
  one block of rows and the whole array. Nothing here uses more of the extended reals than that equal terms give equal
  sums: no finiteness is needed.
-/
import Idealize.ShloMosaic.PureOps.Ideal
import Idealize.ShloMosaic.Lib.ValueIdx

noncomputable section

open scoped BigOperators

namespace Cert.CrossUnit

open Idealize.ShloMosaic Idealize.ShloMosaic.ValueIdx

/-- Entry (p, q) of one output of the unit. -/
def entry {n : Nat} (v e : (⟨2, ![n, 64]⟩ : Shape).Idx → EReal) (wa wb b : Fin 64 → EReal) (p : Fin n) (q : Fin 64) : EReal :=
  v (ix2 p q) * (∑ k : Fin 64, e (ix2 p k) * wa k) + e (ix2 p q) * (∑ k : Fin 64, v (ix2 p k) * wb k) + b q

/-- The whole output array: `entry` at each index's two coordinates. -/
def whole {n : Nat} (v e : (⟨2, ![n, 64]⟩ : Shape).Idx → EReal) (wa wb b : Fin 64 → EReal) :
    (⟨2, ![n, 64]⟩ : Shape).Idx → EReal :=
  fun i => entry v e wa wb b (i 0) (i 1)

/-- At an index given by its coordinates the array is the entry. -/
theorem whole_ix2 {n : Nat} (v e : (⟨2, ![n, 64]⟩ : Shape).Idx → EReal) (wa wb b : Fin 64 → EReal) (p : Fin n) (q : Fin 64) :
    whole v e wa wb b (ix2 p q) = entry v e wa wb b p q := rfl

/-- An entry depends on v and e only through row p, on the weights through their coordinates and on the bias at q:
    two settings that agree there (the rows possibly rows of arrays of different heights) have the same entry. -/
theorem entry_congr {n n' : Nat} {v e : (⟨2, ![n, 64]⟩ : Shape).Idx → EReal} {v' e' : (⟨2, ![n', 64]⟩ : Shape).Idx → EReal}
    {wa wb b wa' wb' b' : Fin 64 → EReal} {p : Fin n} {p' : Fin n'} (q : Fin 64)
    (hv : ∀ k : Fin 64, v (ix2 p k) = v' (ix2 p' k)) (he : ∀ k : Fin 64, e (ix2 p k) = e' (ix2 p' k))
    (ha : ∀ k : Fin 64, wa k = wa' k) (hb : ∀ k : Fin 64, wb k = wb' k) (hc : b q = b' q) :
    entry v e wa wb b p q = entry v' e' wa' wb' b' p' q := by
  unfold entry
  rw [hv q, he q, hc]
  congr 2
  · exact congrArg _ (Finset.sum_congr rfl fun k _ => by rw [he k, ha k])
  · exact congrArg _ (Finset.sum_congr rfl fun k _ => by rw [hv k, hb k])

end Cert.CrossUnit

end
-- ==== Proof.BlockEntry.lean ====
/-
  One block of the kernel's output, entry by entry.

  At a grid point the kernel holds a block of 8192 rows of v and of e, the two weights and the bias as [1, 64] rows, and
  leaves in an output block, at row p and column q,

      v[p, q] · (∑ₖ e[p, k] · wa[0, k])  +  e[p, q] · (∑ₖ v[p, k] · wb[0, k])  +  b[0, q]:

  a [1, 64] row broadcast down the 8192 rows reads, at (p, k), the row's entry (0, k); the sum over the lane axis of a
  product with such a broadcast is the row's dot product with the weight; the [8192] vector of row sums, recast as a column
  and broadcast across the 64 lanes, reads at (p, q) the sum of row p. That is `CrossUnit.entry` of the blocks, with
  each [1, 64] operand read through its second coordinate.
-/
import proofs.«170712_j7164005450408_1_alg».proof.Proof.Gen.KernelIdeal.Value
import proofs.«170712_j7164005450408_1_alg».proof.Proof.CrossSpec
import Idealize.ShloMosaic.Lib.Pipeline.Value
import Idealize.ShloMosaic.Lib.ValueIdx
import Idealize.ShloMosaic.PureOps.Ideal.Laws

noncomputable section

open scoped BigOperators

namespace Cert.KernelIdeal.CrossBlock

open Cert.KernelIdeal Cert.KernelIdeal.Gen Cert.KernelIdeal.Value
open Idealize.ShloMosaic Idealize.ShloMosaic.ValueIdx

/-- A [1, 64] row, broadcast down 8192 rows, read at (p, k): the row's entry (0, k). -/
theorem rowBroadcast_apply {α : Type} (W : S1x64.Idx → α) (h1 : S1x64.ShapeCasts S1x64) (h2 : S1x64.Broadcasts S8192x64)
    (p : Fin 8192) (k : Fin 64) :
    broadcastTo S8192x64 (shapeCast S1x64 W h1) h2 (ix2 p k) = W (ix2 0 k) := by
  rw [shapeCast_self]
  exact broadcastTo_apply W h2 (ix2 p k) (ix2 0 k) (fun a => match a with
    | ⟨0, _⟩ => by show 0 = (if (1 : Nat) = 1 then 0 else p.val); rw [if_pos rfl]
    | ⟨1, _⟩ => by show k.val = (if (64 : Nat) = 1 then 0 else k.val); rw [if_neg (by decide)])

/-- The lane sum of a block times a broadcast row, at row p: the dot product of row p with the row vector. -/
theorem rowDot (A : FVec Ideal S8192x64 .f32) (W : FVec Ideal S1x64 .f32) (h1 : S1x64.ShapeCasts S1x64)
    (h2 : S1x64.Broadcasts S8192x64) (h : S8192x64.Reduces [1] S8192) (p : Fin 8192) :
    multiReduction .add [1] S8192 (mulf A (broadcastTo S8192x64 (shapeCast S1x64 W h1) h2)) 0x00000000#32 h (.inl rfl) rfl (ix1 p)
      = ∑ k : Fin 64, A (ix2 p k) * W (ix2 0 k) := by
  refine (Ideal.multiReduction_add_single (mulf A (broadcastTo S8192x64 (shapeCast S1x64 W h1) h2)) 0x00000000#32 h (.inl rfl) rfl (ix1 p)).trans ?_
  show ∑ k : Fin 64, (mulf A (broadcastTo S8192x64 (shapeCast S1x64 W h1) h2)) (h.lift (ix1 p) k) = _
  refine Finset.sum_congr rfl fun k _ => ?_
  have e : h.lift (ix1 p) k = ix2 p k := funext fun a => Fin.ext (by
    match a with
    | ⟨0, _⟩ => rfl
    | ⟨1, _⟩ => rfl)
  rw [e]
  show A (ix2 p k) * (broadcastTo S8192x64 (shapeCast S1x64 W h1) h2) (ix2 p k) = _
  rw [rowBroadcast_apply]

/-- The first output's block, at (p, q), is the unit's entry over the loaded blocks. -/
theorem block_entry8 (P0 P1 : Vec Ideal S8192x64 .f32) (P2 P3 P4 : Vec Ideal S1x64 .f32) (p : Fin 8192) (q : Fin 64) :
    E8 P0 P1 P2 P3 P4 (ix2 p q)
      = CrossUnit.entry (n := 8192) P0 P1 (fun k => P2 (ix2 0 k)) (fun k => P3 (ix2 0 k)) (fun k => P4 (ix2 0 k)) p q := by
  have i0 : ix8_0 (ix2 p q : S8192x64.Idx) = ix2 p q := funext fun a => Fin.ext (by
    match a with
    | ⟨0, _⟩ => rfl
    | ⟨1, _⟩ => rfl)
  have i1 : ix8_1 (ix2 p q : S8192x64.Idx) = ix1 p := funext fun a => Fin.ext (by
    match a with
    | ⟨0, _⟩ => rfl)
  have i4 : ix8_4 (ix2 p q : S8192x64.Idx) = ix2 0 q := funext fun a => Fin.ext (by
    match a with
    | ⟨0, _⟩ => rfl
    | ⟨1, _⟩ => rfl)
  unfold CrossUnit.entry
  show (P0 (ix8_0 (ix2 p q)) * _ + P1 (ix8_0 (ix2 p q)) * _) + P4 (ix8_4 (ix2 p q)) = _
  rw [i0, i4]
  show (P0 (ix2 p q) * (multiReduction (F := Ideal) .add [1] S8192 (mulf P1 (broadcastTo S8192x64 (shapeCast S1x64 P2 shapeCasts_S1x64_S1x64) broadcasts_S1x64_S8192x64)) 0x00000000#32 reduces_S8192x64_S8192 (.inl rfl) rfl) (ix8_1 (ix2 p q))
      + P1 (ix2 p q) * (multiReduction (F := Ideal) .add [1] S8192 (mulf P0 (broadcastTo S8192x64 (shapeCast S1x64 P3 shapeCasts_S1x64_S1x64) broadcasts_S1x64_S8192x64)) 0x00000000#32 reduces_S8192x64_S8192 (.inl rfl) rfl) (ix8_1 (ix2 p q))) + P4 (ix2 0 q) = _
  rw [i1, rowDot, rowDot]

/-- The second output's block is the same function of its own five operands. -/
theorem block_entry9 (P0 P1 : Vec Ideal S8192x64 .f32) (P2 P3 P4 : Vec Ideal S1x64 .f32) (p : Fin 8192) (q : Fin 64) :
    E9 P0 P1 P2 P3 P4 (ix2 p q)
      = CrossUnit.entry (n := 8192) P0 P1 (fun k => P2 (ix2 0 k)) (fun k => P3 (ix2 0 k)) (fun k => P4 (ix2 0 k)) p q :=
  block_entry8 P0 P1 P2 P3 P4 p q

/-- The zero offsets of a load or store of a whole block. -/
theorem zero_offsets : (![0, 0] : Fin 2 → Nat) = fun _ => 0 := funext fun a => by
  match a with
  | ⟨0, _⟩ => rfl
  | ⟨1, _⟩ => rfl

/-- What the body leaves in the first output's buffer, from the eight operands it loads whole, at (p, q):
    the unit's entry over the v block, the e block, the first two weight rows and the first bias row. -/
theorem out8_at (x0 x1 : Vec Ideal S8192x64 .f32) (x2 x3 x4 x5 x6 x7 : Vec Ideal S1x64 .f32) (p : Fin 8192) (q : Fin 64) :
    out0_8 x0 x1 x2 x3 x4 x5 x6 x7 (ix2 p q)
      = CrossUnit.entry (n := 8192) x0 x1 (fun k => x2 (ix2 0 k)) (fun k => x3 (ix2 0 k)) (fun k => x6 (ix2 0 k)) p q := by
  unfold out0_8
  rw [canon8_eq]
  simp only [View.ld_unit_zero (S := S8192x64) zero_offsets, View.ld_unit_zero (S := S1x64) zero_offsets]
  exact block_entry8 x0 x1 x2 x3 x6 p q

/-- The second output's buffer likewise: the last two weight rows and the second bias row. -/
theorem out9_at (x0 x1 : Vec Ideal S8192x64 .f32) (x2 x3 x4 x5 x6 x7 : Vec Ideal S1x64 .f32) (p : Fin 8192) (q : Fin 64) :
    out0_9 x0 x1 x2 x3 x4 x5 x6 x7 (ix2 p q)
      = CrossUnit.entry (n := 8192) x0 x1 (fun k => x4 (ix2 0 k)) (fun k => x5 (ix2 0 k)) (fun k => x7 (ix2 0 k)) p q := by
  unfold out0_9
  rw [canon9_eq]
  simp only [View.ld_unit_zero (S := S8192x64) zero_offsets, View.ld_unit_zero (S := S1x64) zero_offsets]
  exact block_entry9 x0 x1 x4 x5 x7 p q

end Cert.KernelIdeal.CrossBlock

end
-- ==== Proof.KernelArray.lean ====
/-
  The kernel's two output arrays after the run, as functions of the argument arrays.

  The grid has 32 points; point t stages rows 8192·t … 8192·t + 8191 of v and of e (all 64 columns), the whole of each
  reshaped weight and bias (block (0, 0) of a [1, 64] array at every point), and writes rows 8192·t … of each output.
  Before the region the host only re-lays the six small operands: a [64, 1] column or a [64] vector becomes a [1, 64] row
  with the same 64 numbers in the same order. So entry (p, q) of the block point t writes back is the unit's entry at row
  8192·t + p of the argument arrays, the weights and biases read through their 64 coordinates; the 32 blocks cover every
  row (row r lies in block r / 8192), and each output array ends as `CrossUnit.whole` of the arguments.
-/
import proofs.«170712_j7164005450408_1_alg».proof.Proof.Gen.KernelIdeal.Value
import proofs.«170712_j7164005450408_1_alg».proof.Proof.CrossSpec
import proofs.«170712_j7164005450408_1_alg».proof.Proof.BlockEntry
import Idealize.ShloMosaic.Lib.Pipeline.Value
import Idealize.ShloMosaic.Lib.StableHlo.Run
import Idealize.ShloMosaic.Lib.ValueIdx

noncomputable section

open scoped BigOperators

namespace Cert.KernelIdeal.CrossArray

open Cert.KernelIdeal Cert.KernelIdeal.Gen Cert.KernelIdeal.Value Cert.KernelIdeal.CrossBlock
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The two results as functions of the arguments -/

/-- The first result: v·(e·w_vv) + e·(v·w_ev) + bias_v, row by row. -/
def result0 (c : Dev nD) : S262144x64.Idx → EReal :=
  CrossUnit.whole (n := 262144) (m ((c : Thread nD τ).loc main_arg0)) (m ((c : Thread nD τ).loc main_arg1))
    (fun k => m ((c : Thread nD τ).loc main_arg2) (ix2 k 0)) (fun k => m ((c : Thread nD τ).loc main_arg3) (ix2 k 0))
    (fun k => m ((c : Thread nD τ).loc main_arg6) (ix1 k))

/-- The second result: v·(e·w_ve) + e·(v·w_ee) + bias_e. -/
def result1 (c : Dev nD) : S262144x64.Idx → EReal :=
  CrossUnit.whole (n := 262144) (m ((c : Thread nD τ).loc main_arg0)) (m ((c : Thread nD τ).loc main_arg1))
    (fun k => m ((c : Thread nD τ).loc main_arg4) (ix2 k 0)) (fun k => m ((c : Thread nD τ).loc main_arg5) (ix2 k 0))
    (fun k => m ((c : Thread nD τ).loc main_arg7) (ix1 k))

/-! ## The host's re-laid operands -/

/-- A [64, 1] column recast as a [1, 64] row: entry (0, k) of the row is entry (k, 0) of the column. -/
theorem row_of_col {α : Type} (x : S64x1.Idx → α) (h : S64x1.ShapeCasts S1x64) (k : Fin 64) :
    shapeCast S1x64 x h (ix2 0 k) = x (ix2 k 0) :=
  shapeCast_apply x h (ix2 0 k) (ix2 k 0) (by
    rw [Shape.rowMajor_val_two, Shape.rowMajor_val_two]
    show k.val * 1 + 0 = 0 * 64 + k.val
    omega)

/-- A [64] vector recast as a [1, 64] row: entry (0, k) of the row is entry k of the vector. -/
theorem row_of_vec {α : Type} (x : S64.Idx → α) (h : S64.ShapeCasts S1x64) (k : Fin 64) :
    shapeCast S1x64 x h (ix2 0 k) = x (ix1 k) :=
  shapeCast_apply x h (ix2 0 k) (ix1 k) (by
    rw [Shape.rowMajor_val_one, Shape.rowMajor_val_two]
    show k.val = 0 * 64 + k.val
    omega)

theorem host_v0 (c : Dev nD) : (V m c main_v0 : S1x64.Idx → Elt Ideal .f32) = shapeCast S1x64 (m ((c : Thread nD τ).loc main_arg2)) shapeCasts_S64x1_S1x64 := by
  dsimp only [V, hostOps0]; after_results; rfl
theorem host_v1 (c : Dev nD) : (V m c main_v1 : S1x64.Idx → Elt Ideal .f32) = shapeCast S1x64 (m ((c : Thread nD τ).loc main_arg3)) shapeCasts_S64x1_S1x64 := by
  dsimp only [V, hostOps0]; after_results; rfl
theorem host_v2 (c : Dev nD) : (V m c main_v2 : S1x64.Idx → Elt Ideal .f32) = shapeCast S1x64 (m ((c : Thread nD τ).loc main_arg4)) shapeCasts_S64x1_S1x64 := by
  dsimp only [V, hostOps0]; after_results; rfl
theorem host_v3 (c : Dev nD) : (V m c main_v3 : S1x64.Idx → Elt Ideal .f32) = shapeCast S1x64 (m ((c : Thread nD τ).loc main_arg5)) shapeCasts_S64x1_S1x64 := by
  dsimp only [V, hostOps0]; after_results; rfl
theorem host_v4 (c : Dev nD) : (V m c main_v4 : S1x64.Idx → Elt Ideal .f32) = shapeCast S1x64 (m ((c : Thread nD τ).loc main_arg6)) shapeCasts_S64_S1x64 := by
  dsimp only [V, hostOps0]; after_results; rfl
theorem host_v5 (c : Dev nD) : (V m c main_v5 : S1x64.Idx → Elt Ideal .f32) = shapeCast S1x64 (m ((c : Thread nD τ).loc main_arg7)) shapeCasts_S64_S1x64 := by
  dsimp only [V, hostOps0]; after_results; rfl

/-! ## The windows' index maps over the grid -/

/-- Decided over the 32 points: the four row-tiled windows sit at block (t, 0), the six small ones at block (0, 0). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- Row p of point t's block is row 8192·t + p of the array. -/
def rowAt (t : Fin cfg0.N) (p : Fin 8192) : Fin 262144 :=
  ⟨8192 * t.val + p.val, by
    have ht := t.isLt
    have hN : cfg0.N = 32 := N_0
    have hp := p.isLt
    omega⟩

/-! ## The staged blocks read off the arguments -/

/-- The v block at point t, at (p, k), is v at (8192·t + p, k). -/
theorem vblock_apply (c : Dev nD) (t : Fin cfg0.N) (p : Fin 8192) (k : Fin 64) :
    (iblk m c 0 t : Vec Ideal S8192x64 .f32) (ix2 p k) = m ((c : Thread nD τ).loc main_arg0) (ix2 (rowAt t p) k) := by
  obtain ⟨⟨h0, h1⟩, -⟩ := index_facts t
  unfold iblk
  rw [View.read_apply]
  show V m c main_arg0 _ = _
  rw [V_main_arg0]
  refine congrArg _ (funext fun a => Fin.ext ?_)
  match a with
  | ⟨0, _⟩ => show win0_0.index t (0 : Fin 2) * 8192 + 1 * p.val = 8192 * t.val + p.val; rw [h0]; omega
  | ⟨1, _⟩ => show win0_0.index t (1 : Fin 2) * 64 + 1 * k.val = k.val; rw [h1]; omega

/-- The e block likewise. -/
theorem eblock_apply (c : Dev nD) (t : Fin cfg0.N) (p : Fin 8192) (k : Fin 64) :
    (iblk m c 1 t : Vec Ideal S8192x64 .f32) (ix2 p k) = m ((c : Thread nD τ).loc main_arg1) (ix2 (rowAt t p) k) := by
  obtain ⟨-, ⟨h0, h1⟩, -⟩ := index_facts t
  unfold iblk
  rw [View.read_apply]
  show V m c main_arg1 _ = _
  rw [V_main_arg1]
  refine congrArg _ (funext fun a => Fin.ext ?_)
  match a with
  | ⟨0, _⟩ => show win0_1.index t (0 : Fin 2) * 8192 + 1 * p.val = 8192 * t.val + p.val; rw [h0]; omega
  | ⟨1, _⟩ => show win0_1.index t (1 : Fin 2) * 64 + 1 * k.val = k.val; rw [h1]; omega

/-- Each small operand's block is the whole [1, 64] row: at (0, k) it reads the row as the region found it at (0, k). -/
theorem small2_apply (c : Dev nD) (t : Fin cfg0.N) (k : Fin 64) :
    (iblk m c 2 t : Vec Ideal S1x64 .f32) (ix2 0 k) = m ((c : Thread nD τ).loc main_arg2) (ix2 k 0) := by
  obtain ⟨-, -, -, -, ⟨h0, h1⟩, -⟩ := index_facts t
  unfold iblk
  rw [View.read_apply]
  show V m c main_v0 _ = _
  rw [host_v0]
  refine (congrArg (shapeCast S1x64 (m ((c : Thread nD τ).loc main_arg2)) shapeCasts_S64x1_S1x64) (funext fun a => Fin.ext ?_)).trans
    (row_of_col (m ((c : Thread nD τ).loc main_arg2)) shapeCasts_S64x1_S1x64 k)
  match a with
  | ⟨0, _⟩ => show win0_2.index t (0 : Fin 2) * 1 + 1 * 0 = 0; rw [h0]
  | ⟨1, _⟩ => show win0_2.index t (1 : Fin 2) * 64 + 1 * k.val = k.val; rw [h1]; omega

theorem small3_apply (c : Dev nD) (t : Fin cfg0.N) (k : Fin 64) :
    (iblk m c 3 t : Vec Ideal S1x64 .f32) (ix2 0 k) = m ((c : Thread nD τ).loc main_arg3) (ix2 k 0) := by
  obtain ⟨-, -, -, -, -, ⟨h0, h1⟩, -⟩ := index_facts t
  unfold iblk
  rw [View.read_apply]
  show V m c main_v1 _ = _
  rw [host_v1]
  refine (congrArg (shapeCast S1x64 (m ((c : Thread nD τ).loc main_arg3)) shapeCasts_S64x1_S1x64) (funext fun a => Fin.ext ?_)).trans
    (row_of_col (m ((c : Thread nD τ).loc main_arg3)) shapeCasts_S64x1_S1x64 k)
  match a with
  | ⟨0, _⟩ => show win0_3.index t (0 : Fin 2) * 1 + 1 * 0 = 0; rw [h0]
  | ⟨1, _⟩ => show win0_3.index t (1 : Fin 2) * 64 + 1 * k.val = k.val; rw [h1]; omega

theorem small4_apply (c : Dev nD) (t : Fin cfg0.N) (k : Fin 64) :
    (iblk m c 4 t : Vec Ideal S1x64 .f32) (ix2 0 k) = m ((c : Thread nD τ).loc main_arg4) (ix2 k 0) := by
  obtain ⟨-, -, -, -, -, -, ⟨h0, h1⟩, -⟩ := index_facts t
  unfold iblk
  rw [View.read_apply]
  show V m c main_v2 _ = _
  rw [host_v2]
  refine (congrArg (shapeCast S1x64 (m ((c : Thread nD τ).loc main_arg4)) shapeCasts_S64x1_S1x64) (funext fun a => Fin.ext ?_)).trans
    (row_of_col (m ((c : Thread nD τ).loc main_arg4)) shapeCasts_S64x1_S1x64 k)
  match a with
  | ⟨0, _⟩ => show win0_4.index t (0 : Fin 2) * 1 + 1 * 0 = 0; rw [h0]
  | ⟨1, _⟩ => show win0_4.index t (1 : Fin 2) * 64 + 1 * k.val = k.val; rw [h1]; omega

theorem small5_apply (c : Dev nD) (t : Fin cfg0.N) (k : Fin 64) :
    (iblk m c 5 t : Vec Ideal S1x64 .f32) (ix2 0 k) = m ((c : Thread nD τ).loc main_arg5) (ix2 k 0) := by
  obtain ⟨-, -, -, -, -, -, -, ⟨h0, h1⟩, -⟩ := index_facts t
  unfold iblk
  rw [View.read_apply]
  show V m c main_v3 _ = _
  rw [host_v3]
  refine (congrArg (shapeCast S1x64 (m ((c : Thread nD τ).loc main_arg5)) shapeCasts_S64x1_S1x64) (funext fun a => Fin.ext ?_)).trans
    (row_of_col (m ((c : Thread nD τ).loc main_arg5)) shapeCasts_S64x1_S1x64 k)
  match a with
  | ⟨0, _⟩ => show win0_5.index t (0 : Fin 2) * 1 + 1 * 0 = 0; rw [h0]
  | ⟨1, _⟩ => show win0_5.index t (1 : Fin 2) * 64 + 1 * k.val = k.val; rw [h1]; omega

theorem small6_apply (c : Dev nD) (t : Fin cfg0.N) (k : Fin 64) :
    (iblk m c 6 t : Vec Ideal S1x64 .f32) (ix2 0 k) = m ((c : Thread nD τ).loc main_arg6) (ix1 k) := by
  obtain ⟨-, -, -, -, -, -, -, -, ⟨h0, h1⟩, -⟩ := index_facts t
  unfold iblk
  rw [View.read_apply]
  show V m c main_v4 _ = _
  rw [host_v4]
  refine (congrArg (shapeCast S1x64 (m ((c : Thread nD τ).loc main_arg6)) shapeCasts_S64_S1x64) (funext fun a => Fin.ext ?_)).trans
    (row_of_vec (m ((c : Thread nD τ).loc main_arg6)) shapeCasts_S64_S1x64 k)
  match a with
  | ⟨0, _⟩ => show win0_6.index t (0 : Fin 2) * 1 + 1 * 0 = 0; rw [h0]
  | ⟨1, _⟩ => show win0_6.index t (1 : Fin 2) * 64 + 1 * k.val = k.val; rw [h1]; omega

theorem small7_apply (c : Dev nD) (t : Fin cfg0.N) (k : Fin 64) :
    (iblk m c 7 t : Vec Ideal S1x64 .f32) (ix2 0 k) = m ((c : Thread nD τ).loc main_arg7) (ix1 k) := by
  obtain ⟨-, -, -, -, -, -, -, -, -, h0, h1⟩ := index_facts t
  unfold iblk
  rw [View.read_apply]
  show V m c main_v5 _ = _
  rw [host_v5]
  refine (congrArg (shapeCast S1x64 (m ((c : Thread nD τ).loc main_arg7)) shapeCasts_S64_S1x64) (funext fun a => Fin.ext ?_)).trans
    (row_of_vec (m ((c : Thread nD τ).loc main_arg7)) shapeCasts_S64_S1x64 k)
  match a with
  | ⟨0, _⟩ => show win0_7.index t (0 : Fin 2) * 1 + 1 * 0 = 0; rw [h0]
  | ⟨1, _⟩ => show win0_7.index t (1 : Fin 2) * 64 + 1 * k.val = k.val; rw [h1]; omega

/-! ## What a point writes back -/

/-- Point t writes block t of the first result. -/
theorem flushed8_eq (c : Dev nD) (t : Fin cfg0.N) :
    (dats m 0 c).flushed 8 t = ((cfg0.win 8).blk t).view.read (Elt Ideal) (result0 m c) := by
  obtain ⟨-, -, ⟨h0, h1⟩, -⟩ := index_facts t
  rw [Value.flushed8]
  refine funext fun (j : S8192x64.Idx) => ?_
  obtain ⟨p, q, rfl⟩ : ∃ (p : Fin 8192) (q : Fin 64), j = ix2 p q := ⟨j 0, j 1, eq_ix2 j⟩
  rw [View.read_apply]
  show out0_8 (iblk m c 0 t) (iblk m c 1 t) (iblk m c 2 t) (iblk m c 3 t) (iblk m c 4 t) (iblk m c 5 t) (iblk m c 6 t) (iblk m c 7 t) (ix2 p q)
    = result0 m c (((cfg0.win 8).blk t).view.emb (ix2 p q))
  have he : ((cfg0.win 8).blk t).view.emb (ix2 p q : S8192x64.Idx) = ix2 (rowAt t p) q := funext fun a => Fin.ext (by
    match a with
    | ⟨0, _⟩ => show win0_8.index t (0 : Fin 2) * 8192 + 1 * p.val = 8192 * t.val + p.val; rw [h0]; omega
    | ⟨1, _⟩ => show win0_8.index t (1 : Fin 2) * 64 + 1 * q.val = q.val; rw [h1]; omega)
  rw [he]
  refine (out8_at (iblk m c 0 t) (iblk m c 1 t) (iblk m c 2 t) (iblk m c 3 t) (iblk m c 4 t) (iblk m c 5 t) (iblk m c 6 t) (iblk m c 7 t) p q).trans ?_
  unfold result0
  rw [CrossUnit.whole_ix2]
  exact CrossUnit.entry_congr q (fun k => vblock_apply m c t p k) (fun k => eblock_apply m c t p k)
    (fun k => small2_apply m c t k) (fun k => small3_apply m c t k) (small6_apply m c t q)

/-- Point t writes block t of the second result. -/
theorem flushed9_eq (c : Dev nD) (t : Fin cfg0.N) :
    (dats m 0 c).flushed 9 t = ((cfg0.win 9).blk t).view.read (Elt Ideal) (result1 m c) := by
  obtain ⟨-, -, -, ⟨h0, h1⟩, -⟩ := index_facts t
  rw [Value.flushed9]
  refine funext fun (j : S8192x64.Idx) => ?_
  obtain ⟨p, q, rfl⟩ : ∃ (p : Fin 8192) (q : Fin 64), j = ix2 p q := ⟨j 0, j 1, eq_ix2 j⟩
  rw [View.read_apply]
  show out0_9 (iblk m c 0 t) (iblk m c 1 t) (iblk m c 2 t) (iblk m c 3 t) (iblk m c 4 t) (iblk m c 5 t) (iblk m c 6 t) (iblk m c 7 t) (ix2 p q)
    = result1 m c (((cfg0.win 9).blk t).view.emb (ix2 p q))
  have he : ((cfg0.win 9).blk t).view.emb (ix2 p q : S8192x64.Idx) = ix2 (rowAt t p) q := funext fun a => Fin.ext (by
    match a with
    | ⟨0, _⟩ => show win0_9.index t (0 : Fin 2) * 8192 + 1 * p.val = 8192 * t.val + p.val; rw [h0]; omega
    | ⟨1, _⟩ => show win0_9.index t (1 : Fin 2) * 64 + 1 * q.val = q.val; rw [h1]; omega)
  rw [he]
  refine (out9_at (iblk m c 0 t) (iblk m c 1 t) (iblk m c 2 t) (iblk m c 3 t) (iblk m c 4 t) (iblk m c 5 t) (iblk m c 6 t) (iblk m c 7 t) p q).trans ?_
  unfold result1
  rw [CrossUnit.whole_ix2]
  exact CrossUnit.entry_congr q (fun k => vblock_apply m c t p k) (fun k => eblock_apply m c t p k)
    (fun k => small4_apply m c t k) (fun k => small5_apply m c t k) (small7_apply m c t q)

/-! ## The blocks cover the arrays -/

/-- The point whose block holds row r: r / 8192. -/
def pointOf (i : S262144x64.Idx) : Fin cfg0.N :=
  ⟨(i 0).val / 8192, by
    have hi : (i 0).val < 262144 := (i 0).isLt
    have hN : cfg0.N = 32 := N_0
    omega⟩

/-- Every index of the first result lies in the block of the point that owns its row. -/
theorem cover8 (i : S262144x64.Idx) :
    ∃ t : Fin cfg0.N, (cfg0.win 8).flush t = true ∧ i ∈ ((cfg0.win 8).blk t).view.set := by
  refine ⟨pointOf i, flush0_8 _, ?_⟩
  obtain ⟨-, -, ⟨h0, h1⟩, -⟩ := index_facts (pointOf i)
  have hi0 : (i 0).val < 262144 := (i 0).isLt
  have hi1 : (i 1).val < 64 := (i 1).isLt
  have hp : (pointOf i).val = (i 0).val / 8192 := rfl
  show i ∈ ((View.whole main_v6_0).slice (win0_8.rect (pointOf i))).set
  rw [View.set_slice_whole, Rect.mem_set_unit]
  intro a
  match a with
  | ⟨0, _⟩ =>
    show win0_8.index (pointOf i) (0 : Fin 2) * 8192 ≤ (i 0).val ∧ (i 0).val < win0_8.index (pointOf i) (0 : Fin 2) * 8192 + 8192
    rw [h0, hp]; omega
  | ⟨1, _⟩ =>
    show win0_8.index (pointOf i) (1 : Fin 2) * 64 ≤ (i 1).val ∧ (i 1).val < win0_8.index (pointOf i) (1 : Fin 2) * 64 + 64
    rw [h1]; omega

/-- The second result likewise. -/
theorem cover9 (i : S262144x64.Idx) :
    ∃ t : Fin cfg0.N, (cfg0.win 9).flush t = true ∧ i ∈ ((cfg0.win 9).blk t).view.set := by
  refine ⟨pointOf i, flush0_9 _, ?_⟩
  obtain ⟨-, -, -, ⟨h0, h1⟩, -⟩ := index_facts (pointOf i)
  have hi0 : (i 0).val < 262144 := (i 0).isLt
  have hi1 : (i 1).val < 64 := (i 1).isLt
  have hp : (pointOf i).val = (i 0).val / 8192 := rfl
  show i ∈ ((View.whole main_v6_1).slice (win0_9.rect (pointOf i))).set
  rw [View.set_slice_whole, Rect.mem_set_unit]
  intro a
  match a with
  | ⟨0, _⟩ =>
    show win0_9.index (pointOf i) (0 : Fin 2) * 8192 ≤ (i 0).val ∧ (i 0).val < win0_9.index (pointOf i) (0 : Fin 2) * 8192 + 8192
    rw [h0, hp]; omega
  | ⟨1, _⟩ =>
    show win0_9.index (pointOf i) (1 : Fin 2) * 64 ≤ (i 1).val ∧ (i 1).val < win0_9.index (pointOf i) (1 : Fin 2) * 64 + 64
    rw [h1]; omega

/-! ## The arrays after the run, and the run -/

theorem final8 (c : Dev nD) : (dats m 0 c).arrAt 8 cfg0.N = result0 m c :=
  (dats m 0 c).arrAt_eq_of_cover 8 (result0 m c) (fun t _ => flushed8_eq m c t) cover8

theorem final9 (c : Dev nD) : (dats m 0 c).arrAt 9 cfg0.N = result1 m c :=
  (dats m 0 c).arrAt_eq_of_cover 9 (result1 m c) (fun t _ => flushed9_eq m c t) cover9

/-- Every weakly fair execution of the idealized kernel ends with its two results at `result0`, `result1` of the
    arguments, and the arguments as they were. -/
theorem run : θ_run defs (onTc (τ := τ) (main (F := Ideal))) ⟨m, fun _ => 0, ρ⟩ fun r => ∀ c : Dev nD,
      r.2.mem ((c : Thread nD τ).loc main_v6_0) = result0 m c
      ∧ r.2.mem ((c : Thread nD τ).loc main_v6_1) = result1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2.1.trans (final9 m c), (h c).2.2⟩)
    (Value.run_blocks m ρ)

end Cert.KernelIdeal.CrossArray

end
-- ==== Proof.RefEntry.lean ====
/-
  The reference's two results, entry by entry.

  The reference contracts each [262144, 64] input with a [64, 1] weight column (a matrix product whose result has one
  column), broadcasts that column across the 64 lanes, multiplies pointwise by the other input, adds the two products and
  adds the [64] bias broadcast down the rows. At (p, q) the contracted column reads its row p, which is
  ∑ₖ x[p, k] · w[k, 0]; the bias reads its coordinate q. So each result is `CrossUnit.whole` of the two inputs, with a
  weight column read through its first coordinate and the bias through its only one.
-/
import proofs.«170712_j7164005450408_1_alg».proof.Proof.Gen.ReferenceIdeal.Read
import proofs.«170712_j7164005450408_1_alg».proof.Proof.CrossSpec
import Idealize.ShloMosaic.Lib.ValueIdx

noncomputable section

open scoped BigOperators

namespace Cert.ReferenceIdeal.CrossRef

open Cert.ReferenceIdeal Cert.ReferenceIdeal.Gen Cert.ReferenceIdeal.Read
open Idealize.ShloMosaic Idealize.ShloMosaic.ValueIdx

/-- The products' column, read where the lane broadcast reads it for (p, q): row p of x against the column w. -/
theorem col0 (x : (⟨S262144x64, .f32⟩ : BufTy).Contents (Elt Ideal)) (w : (⟨S64x1, .f32⟩ : BufTy).Contents (Elt Ideal))
    (p : Fin 262144) (q : Fin 64) :
    val_main_v0 (F := Ideal) x w (idx_main_v4 (ix2 p q)) = ∑ k : Fin 64, x (ix2 p k) * w (ix2 k 0) := by
  refine (val_main_v0_apply x w _).trans (Finset.sum_congr rfl fun k _ => ?_)
  have hl : lidx_main_v0 (idx_main_v4 (ix2 p q : S262144x64.Idx)) k = ix2 p k := funext fun a => Fin.ext (by
    match a with
    | ⟨0, _⟩ => rfl
    | ⟨1, _⟩ => rfl)
  have hr : ridx_main_v0 (idx_main_v4 (ix2 p q : S262144x64.Idx)) k = ix2 k 0 := funext fun a => Fin.ext (by
    match a with
    | ⟨0, _⟩ => rfl
    | ⟨1, _⟩ => rfl)
  rw [hl, hr]

theorem col1 (x : (⟨S262144x64, .f32⟩ : BufTy).Contents (Elt Ideal)) (w : (⟨S64x1, .f32⟩ : BufTy).Contents (Elt Ideal))
    (p : Fin 262144) (q : Fin 64) :
    val_main_v1 (F := Ideal) x w (idx_main_v6 (ix2 p q)) = ∑ k : Fin 64, x (ix2 p k) * w (ix2 k 0) := by
  refine (val_main_v1_apply x w _).trans (Finset.sum_congr rfl fun k _ => ?_)
  have hl : lidx_main_v1 (idx_main_v6 (ix2 p q : S262144x64.Idx)) k = ix2 p k := funext fun a => Fin.ext (by
    match a with
    | ⟨0, _⟩ => rfl
    | ⟨1, _⟩ => rfl)
  have hr : ridx_main_v1 (idx_main_v6 (ix2 p q : S262144x64.Idx)) k = ix2 k 0 := funext fun a => Fin.ext (by
    match a with
    | ⟨0, _⟩ => rfl
    | ⟨1, _⟩ => rfl)
  rw [hl, hr]

theorem col2 (x : (⟨S262144x64, .f32⟩ : BufTy).Contents (Elt Ideal)) (w : (⟨S64x1, .f32⟩ : BufTy).Contents (Elt Ideal))
    (p : Fin 262144) (q : Fin 64) :
    val_main_v2 (F := Ideal) x w (idx_main_v12 (ix2 p q)) = ∑ k : Fin 64, x (ix2 p k) * w (ix2 k 0) := by
  refine (val_main_v2_apply x w _).trans (Finset.sum_congr rfl fun k _ => ?_)
  have hl : lidx_main_v2 (idx_main_v12 (ix2 p q : S262144x64.Idx)) k = ix2 p k := funext fun a => Fin.ext (by
    match a with
    | ⟨0, _⟩ => rfl
    | ⟨1, _⟩ => rfl)
  have hr : ridx_main_v2 (idx_main_v12 (ix2 p q : S262144x64.Idx)) k = ix2 k 0 := funext fun a => Fin.ext (by
    match a with
    | ⟨0, _⟩ => rfl
    | ⟨1, _⟩ => rfl)
  rw [hl, hr]

theorem col3 (x : (⟨S262144x64, .f32⟩ : BufTy).Contents (Elt Ideal)) (w : (⟨S64x1, .f32⟩ : BufTy).Contents (Elt Ideal))
    (p : Fin 262144) (q : Fin 64) :
    val_main_v3 (F := Ideal) x w (idx_main_v14 (ix2 p q)) = ∑ k : Fin 64, x (ix2 p k) * w (ix2 k 0) := by
  refine (val_main_v3_apply x w _).trans (Finset.sum_congr rfl fun k _ => ?_)
  have hl : lidx_main_v3 (idx_main_v14 (ix2 p q : S262144x64.Idx)) k = ix2 p k := funext fun a => Fin.ext (by
    match a with
    | ⟨0, _⟩ => rfl
    | ⟨1, _⟩ => rfl)
  have hr : ridx_main_v3 (idx_main_v14 (ix2 p q : S262144x64.Idx)) k = ix2 k 0 := funext fun a => Fin.ext (by
    match a with
    | ⟨0, _⟩ => rfl
    | ⟨1, _⟩ => rfl)
  rw [hl, hr]

/-- The bias of the first result, broadcast to a row and then down the rows, read at (p, q): its coordinate q. -/
theorem bias0 (b : (⟨S64, .f32⟩ : BufTy).Contents (Elt Ideal)) (p : Fin 262144) (q : Fin 64) :
    val_main_v10 (F := Ideal) b (ix2 p q) = b (ix1 q) := by
  rw [val_main_v10_apply, val_main_v9_apply]
  exact congrArg b (funext fun a => Fin.ext (by
    match a with
    | ⟨0, _⟩ => rfl))

/-- The bias of the second result likewise. -/
theorem bias1 (b : (⟨S64, .f32⟩ : BufTy).Contents (Elt Ideal)) (p : Fin 262144) (q : Fin 64) :
    val_main_v18 (F := Ideal) b (ix2 p q) = b (ix1 q) := by
  rw [val_main_v18_apply, val_main_v17_apply]
  exact congrArg b (funext fun a => Fin.ext (by
    match a with
    | ⟨0, _⟩ => rfl))

/-- The first result is the unit's output at the weights wa, wb and the bias b. -/
theorem result0_eq (x0 x1 : (⟨S262144x64, .f32⟩ : BufTy).Contents (Elt Ideal)) (x2 x3 : (⟨S64x1, .f32⟩ : BufTy).Contents (Elt Ideal))
    (x6 : (⟨S64, .f32⟩ : BufTy).Contents (Elt Ideal)) :
    val_main_v11 (F := Ideal) x0 x1 x2 x3 x6
      = CrossUnit.whole (n := 262144) x0 x1 (fun k => x2 (ix2 k 0)) (fun k => x3 (ix2 k 0)) (fun k => x6 (ix1 k)) := by
  funext i
  obtain ⟨p, q, rfl⟩ : ∃ (p : Fin 262144) (q : Fin 64), i = ix2 p q := ⟨i 0, i 1, eq_ix2 i⟩
  rw [CrossUnit.whole_ix2, val_main_v11_apply, val_main_v8_apply, val_main_v5_apply, val_main_v7_apply, val_main_v4_apply,
    val_main_v6_apply, col0, col1, bias0]
  rfl

/-- The second result is the unit's output at its own weights and bias. -/
theorem result1_eq (x0 x1 : (⟨S262144x64, .f32⟩ : BufTy).Contents (Elt Ideal)) (x4 x5 : (⟨S64x1, .f32⟩ : BufTy).Contents (Elt Ideal))
    (x7 : (⟨S64, .f32⟩ : BufTy).Contents (Elt Ideal)) :
    val_main_v19 (F := Ideal) x0 x1 x4 x5 x7
      = CrossUnit.whole (n := 262144) x0 x1 (fun k => x4 (ix2 k 0)) (fun k => x5 (ix2 k 0)) (fun k => x7 (ix1 k)) := by
  funext i
  obtain ⟨p, q, rfl⟩ : ∃ (p : Fin 262144) (q : Fin 64), i = ix2 p q := ⟨i 0, i 1, eq_ix2 i⟩
  rw [CrossUnit.whole_ix2, val_main_v19_apply, val_main_v16_apply, val_main_v13_apply, val_main_v15_apply, val_main_v12_apply,
    val_main_v14_apply, col2, col3, bias1]
  rfl

end Cert.ReferenceIdeal.CrossRef

end
-- ==== Proof.lean ====
/-
  The cross-compress unit: a row-tiled kernel against its plain reference, over the extended reals.

  Inputs: v, e of shape [262144, 64]; four weight columns of shape [64, 1]; two biases of shape [64]. Two results,

      v_out[p, q] = v[p, q] · (∑ₖ e[p, k] · w_vv[k])  +  e[p, q] · (∑ₖ v[p, k] · w_ev[k])  +  bias_v[q],
      e_out[p, q] = v[p, q] · (∑ₖ e[p, k] · w_ve[k])  +  e[p, q] · (∑ₖ v[p, k] · w_ee[k])  +  bias_e[q].

  The reference forms each row sum as a matrix product with a one-column weight and broadcasts it across the lanes; the
  kernel, on blocks of 8192 rows, multiplies a block by the weight laid out as a row, sums over the lane axis (into a zero
  accumulator), and broadcasts the column of sums back. Read at one entry both are the same expression with the same 64
  products under each sum, in the same order of operations outside the sums; the only literal is the zero the lane sums
  start from, and 0 + s = s. So the two programs agree on every extended-real input: no input needs to be finite, and the
  precondition is never opened.

  The modules: `CrossSpec` states the entry and the array it defines; `BlockEntry` reads the kernel body's stored block at
  an entry; `KernelArray` carries that from the 32 blocks to the two output arrays and restates the kernel's run;
  `RefEntry` reads the reference's two results at an entry. Here the five claims are put together: the kernel's frames are
  its run with the results dropped, at either instance; the reference's frame is its run with the results dropped; the
  idealization rewrote nothing; and both idealized runs end at the same two functions of arguments that agree.
-/
import proofs.«170712_j7164005450408_1_alg».proof.Defs
import proofs.«170712_j7164005450408_1_alg».proof.Proof.Gen.Kernel
import proofs.«170712_j7164005450408_1_alg».proof.Proof.Gen.Kernel.Skeleton
import proofs.«170712_j7164005450408_1_alg».proof.Proof.Gen.Kernel.Launch
import proofs.«170712_j7164005450408_1_alg».proof.Proof.Gen.Kernel.Points
import proofs.«170712_j7164005450408_1_alg».proof.Proof.Gen.Kernel.Frame
import proofs.«170712_j7164005450408_1_alg».proof.Proof.Gen.KernelIdeal
import proofs.«170712_j7164005450408_1_alg».proof.Proof.Gen.KernelIdeal.Skeleton
import proofs.«170712_j7164005450408_1_alg».proof.Proof.Gen.KernelIdeal.Launch
import proofs.«170712_j7164005450408_1_alg».proof.Proof.Gen.KernelIdeal.Points
import proofs.«170712_j7164005450408_1_alg».proof.Proof.Gen.KernelIdeal.Frame
import proofs.«170712_j7164005450408_1_alg».proof.Proof.Gen.ReferenceIdeal
import proofs.«170712_j7164005450408_1_alg».proof.Proof.Gen.Pre_finite_inputs
import proofs.«170712_j7164005450408_1_alg».proof.Proof.Gen.KernelIdeal.Value
import proofs.«170712_j7164005450408_1_alg».proof.Proof.Gen.ReferenceIdeal.Run
import proofs.«170712_j7164005450408_1_alg».proof.Proof.Gen.ReferenceIdeal.Read
import proofs.«170712_j7164005450408_1_alg».proof.Proof.CrossSpec
import proofs.«170712_j7164005450408_1_alg».proof.Proof.BlockEntry
import proofs.«170712_j7164005450408_1_alg».proof.Proof.KernelArray
import proofs.«170712_j7164005450408_1_alg».proof.Proof.RefEntry
import Idealize.ShloMosaic.Adequacy
import Idealize.ShloMosaic.Init

noncomputable section

namespace Cert.Proof

open Idealize.ShloMosaic Idealize.ShloMosaic.TcCoe Idealize.SL.Sem

/-- The kernel as printed runs to its end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation: nothing to preserve. -/
theorem preserves : Cert.preserves_Kernel_KernelIdeal := trivial

/-- From arguments that agree, the kernel's two arrays end at `result0`, `result1` of them (the run of `KernelArray`), and the
    reference's two results are the same two functions (`RefEntry`), each the unit's array at its own weights and bias. -/
theorem algebraic : Cert.algebraic_KernelIdeal_ReferenceIdeal := by
  intro m ρ m' ρ' _ hagree
  refine ⟨fun c => Cert.KernelIdeal.CrossArray.result0 m c, fun c => Cert.KernelIdeal.CrossArray.result1 m c,
    Cert.KernelIdeal.CrossArray.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, -, -, h6, -⟩ := hagree c
    rw [Cert.ReferenceIdeal.Read.val_main_v11_eq, Cert.ReferenceIdeal.CrossRef.result0_eq, h0, h1, h2, h3, h6]
    rfl
  · obtain ⟨h0, h1, -, -, h4, h5, -, h7⟩ := hagree c
    rw [Cert.ReferenceIdeal.Read.val_main_v19_eq, Cert.ReferenceIdeal.CrossRef.result1_eq, h0, h1, h4, h5, h7]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
